-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024x64 : Shape := ⟨3, ![64, 1024, 64]⟩
abbrev S64x64 : Shape := ⟨2, ![64, 64]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x1024x64 : S_.BroadcastsInDim S64x1024x64 (![] : Fin 0 → Fin S64x1024x64.rank)
  reducesTo_S64x1024x64_S_d0_1_2 : S64x1024x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S64x1024x1024 .f32) (main_arg1 : FVec F S64x1024x64 .f32) (main_arg2 : FVec F S64x64 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S64x1024x1024 : Shape := ⟨3, ![64, 1024, 1024]⟩
abbrev S64x1024x64 : Shape := ⟨3, ![64, 1024, 64]⟩
abbrev S64x64 : Shape := ⟨2, ![64, 64]⟩
abbrev S64x1024x1 : Shape := ⟨3, ![64, 1024, 1]⟩
abbrev S1x1024x1024 : Shape := ⟨3, ![1, 1024, 1024]⟩
abbrev S1x1024x1 : Shape := ⟨3, ![1, 1024, 1]⟩
abbrev S1x1024 : Shape := ⟨2, ![1, 1024]⟩
abbrev S1x1024x64 : Shape := ⟨3, ![1, 1024, 64]⟩
abbrev S1024x64 : Shape := ⟨2, ![1024, 64]⟩
abbrev S1024x1 : Shape := ⟨2, ![1024, 1]⟩
abbrev S1024x1024 : Shape := ⟨2, ![1024, 1024]⟩

abbrev nBuf : Space → Nat
  | .hbm => 5
  | .vmem => 13
  | .smem => 0
  | _ => 0

abbrev bufTy : (tb : Table) → Fin (tcTables nBuf tb) → BufTy
  | .hbm, ⟨0, _⟩ => ⟨S64x1024x1024, .f32⟩
  | .hbm, ⟨1, _⟩ => ⟨S64x1024x64, .f32⟩
  | .hbm, ⟨2, _⟩ => ⟨S64x64, .f32⟩
  | .hbm, ⟨3, _⟩ => ⟨S64x1024x1, .f32⟩
  | .hbm, ⟨4, _⟩ => ⟨S64x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x64, .f32⟩
  | .local _ .vmem, ⟨7, _⟩ => ⟨S1x1024x64, .f32⟩
  | .local _ .vmem, ⟨8, _⟩ => ⟨S64x64, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x64, .f32⟩
  | .local _ .vmem, ⟨12, _⟩ => ⟨S1x1024x64, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  reduces_S1x1024x1024_S1x1024 : S1x1024x1024.Reduces [2] S1x1024
  shapeCasts_S1x1024_S1x1024x1 : S1x1024.ShapeCasts S1x1024x1
  inb_S1x1024x1_S1x1024x1_0_0_0 : ∀ a, (![0, 0, 0] : Fin 3 → Nat) a + S1x1024x1.size a ≤ S1x1024x1.size a
  h_S1x1024x1 : 0 < S1x1024x1.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S1x1024x1_S1024x1 : S1x1024x1.ShapeCasts S1024x1
  broadcasts_S1024x1_S1024x64 : S1024x1.Broadcasts S1024x64
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  natLt_1_32 : 1 < 32
  shapeCasts_S1024x64_S1x1024x64 : S1024x64.ShapeCasts S1x1024x64
  dot_S1024x64_S64x64_S1024x64_1_0_0_1_n_n_wf : DotDims.WF S1024x64 S64x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S64x1024x1.size a
  hwx0_1 : ∀ i : grid0.Coords, EltTy.bits .f32 = 32 ∨ (Rect.block (s := S64x1024x1) S1x1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S64x1024x1024.size a
  hwx1_0 : ∀ i : grid1.Coords, EltTy.bits .f32 = 32 ∨ (Rect.block (s := S64x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x1024x64.size a
  hwx1_1 : ∀ i : grid1.Coords, EltTy.bits .f32 = 32 ∨ (Rect.block (s := S64x1024x64) S1x1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S64x1024x1.size a
  hwx1_3 : ∀ i : grid1.Coords, EltTy.bits .f32 = 32 ∨ (Rect.block (s := S64x1024x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S64x1024x64.size a
  hwx1_4 : ∀ i : grid1.Coords, EltTy.bits .f32 = 32 ∨ (Rect.block (s := S64x1024x64) S1x1024x64.size (cc1_transform_4 i) (hinb1_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x1024x1024 : Shape := ⟨3, ![64, 1024, 1024]⟩
abbrev S64x1024x64 : Shape := ⟨3, ![64, 1024, 64]⟩
abbrev S64x64 : Shape := ⟨2, ![64, 64]⟩
abbrev S_ : Shape := ⟨0, ![]⟩
abbrev S64x1024 : Shape := ⟨2, ![64, 1024]⟩
abbrev S1024x1024 : Shape := ⟨2, ![1024, 1024]⟩
abbrev S1x1024x1024 : Shape := ⟨3, ![1, 1024, 1024]⟩
abbrev S64x1024x1 : Shape := ⟨3, ![64, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x64, .f32⟩
  | .hbm, ⟨2, _⟩ => ⟨S64x64, .f32⟩
  | .hbm, ⟨3, _⟩ => ⟨S_, .f32⟩
  | .hbm, ⟨4, _⟩ => ⟨S64x1024, .f32⟩
  | .hbm, ⟨5, _⟩ => ⟨S64x1024, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S1x1024x1024, .f32⟩
  | .hbm, ⟨14, _⟩ => ⟨S64x1024x1024, .f32⟩
  | .hbm, ⟨15, _⟩ => ⟨S64x1024x1024, .f32⟩
  | .hbm, ⟨16, _⟩ => ⟨S64x1024x64, .f32⟩
  | .hbm, ⟨17, _⟩ => ⟨S64x1024x1, .f32⟩
  | .hbm, ⟨18, _⟩ => ⟨S64x1024x64, .f32⟩
  | .hbm, ⟨19, _⟩ => ⟨S64x1024x64, .f32⟩
  | .hbm, ⟨20, _⟩ => ⟨S64x1024x64, .f32⟩
  | .hbm, ⟨21, _⟩ => ⟨S64x1024x1, .f32⟩
  | .hbm, ⟨22, _⟩ => ⟨S64x1024x64, .f32⟩
  | .hbm, ⟨23, _⟩ => ⟨S64x1024x64, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  reducesTo_S64x1024x1024_S64x1024_d2 : S64x1024x1024.ReducesTo [2] S64x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024_S64x1024x1_0_1 : S64x1024.BroadcastsInDim S64x1024x1 (![0, 1] : Fin 2 → Fin S64x1024x1.rank)
  bcast_S64x1024x1_S64x1024x64_0_1_2 : S64x1024x1.BroadcastsInDim S64x1024x64 (![0, 1, 2] : Fin 3 → Fin S64x1024x64.rank)
  dot_S64x1024x64_S64x64_S64x1024x64_2_0_01_1_n_n_wf : DotDims.WF S64x1024x64 S64x64 S64x1024x64 [2] [0] [0, 1] [1] [] []
  dot_S64x1024x1024_S64x1024x64_S64x1024x64_2_1_1_2_0_0_wf : DotDims.WF S64x1024x1024 S64x1024x64 S64x1024x64 [2] [1] [1] [2] [0] [0]

variable [Facts₀]

def dot_S64x1024x64_S64x64_S64x1024x64_2_0_01_1_n_n : DotDims S64x1024x64 S64x64 S64x1024x64 where
  lhsContracting := [2]
  rhsContracting := [0]
  lhsNonContracting := [0, 1]
  rhsNonContracting := [1]
  lhsBatch := []
  rhsBatch := []
  wf := dot_S64x1024x64_S64x64_S64x1024x64_2_0_01_1_n_n_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Spec.lean ====
/-
  The function both programs compute, over the extended reals, written over coordinates.

  For a batch `b`, a node `n` and an output feature `e`:
    deg b n    = ∑ k, adj[b, n, k]                          (the row sum of the adjacency, self-loops not counted)
    dinv b n   = (deg b n)^(-1/2)
    feat b k e = ∑ d, att[b, k, d] · w[d, e]               (the features times the weight matrix)
    out b n e  = dinv b n · ∑ k, (adj[b, n, k] + δ n k) · (dinv b k · feat b k e)
  where `δ` is the identity matrix (the self-loop added after the degrees are taken). `outWith` is the last line with
  the inverse square roots read from a column array `dv` of shape [64, 1024, 1] (what the second kernel region is
  handed); `gcn` is `outWith` at the column the first region computes.

  The identity matrix is built from two coordinate ramps compared for equality; the comparison's one-bit result is
  widened and read as a signed word on one side and read directly as an unsigned bit on the other. Both readings are
  `1` on the diagonal and `0` off it (`eye_signed`, `eye_unsigned`): the coordinates are below 1024, so the 32-bit
  words of two different coordinates differ.
-/
import Idealize.ShloMosaic.Lib.ValueIdx
import Idealize.ShloMosaic.PureOps.Ideal.Laws

noncomputable section

namespace Cert.Spec

open Idealize.ShloMosaic Idealize.ShloMosaic.ValueIdx

abbrev Adj := (⟨3, ![64, 1024, 1024]⟩ : Shape).Idx → EReal
abbrev Att := (⟨3, ![64, 1024, 64]⟩ : Shape).Idx → EReal
abbrev Wt := (⟨2, ![64, 64]⟩ : Shape).Idx → EReal
abbrev Col := (⟨3, ![64, 1024, 1]⟩ : Shape).Idx → EReal

/-- The identity matrix: the self-loop's weight. -/
def eye (n k : Fin 1024) : EReal := if n = k then 1 else 0

/-- The inverse square root of a node's degree (the sum of its row of the adjacency). -/
def dinv (adj : Adj) (b : Fin 64) (n : Fin 1024) : EReal := Ideal.rsqrt (∑ k : Fin 1024, adj (ix3 b n k))

/-- The same as a column array. -/
def dinvCol (adj : Adj) : Col := fun i => dinv adj (i 0) (i 1)

/-- Node `k`'s features times the weight matrix, at output feature `e`. -/
def feat (att : Att) (w : Wt) (b : Fin 64) (k : Fin 1024) (e : Fin 64) : EReal := ∑ d : Fin 64, att (ix3 b k d) * w (ix2 d e)

/-- The normalized propagation with the inverse square roots read from a column array. -/
def outWith (adj : Adj) (att : Att) (w : Wt) (dv : Col) (b : Fin 64) (n : Fin 1024) (e : Fin 64) : EReal :=
  dv (ix3 b n 0) * ∑ k : Fin 1024, (adj (ix3 b n k) + eye n k) * (dv (ix3 b k 0) * feat att w b k e)

/-- As an array. -/
def outArr (adj : Adj) (att : Att) (w : Wt) (dv : Col) : Att := fun i => outWith adj att w dv (i 0) (i 1) (i 2)

/-- The whole layer: the propagation at the degrees' inverse square roots. -/
def gcn (adj : Adj) (att : Att) (w : Wt) : Att := outArr adj att w (dinvCol adj)

/-! ## The identity matrix from two compared ramps -/

theorem ofNat_ne {n k : Fin 1024} (h : n ≠ k) : BitVec.ofNat 32 n.val ≠ BitVec.ofNat 32 k.val := by
  intro e
  have e' := congrArg BitVec.toNat e
  simp only [BitVec.toNat_ofNat] at e'
  have hn := n.isLt
  have hk := k.isLt
  exact h (Fin.ext (by omega))

theorem cmpi_ramps (n k : Fin 1024) :
    IntOp.cmpi .eq (BitVec.ofNat 32 n.val) (BitVec.ofNat 32 k.val) = if n = k then 1#1 else 0#1 := by
  by_cases h : n = k
  · subst h; rw [if_pos rfl]; simp [IntOp.cmpi]
  · rw [if_neg h]
    have hb : (BitVec.ofNat 32 n.val == BitVec.ofNat 32 k.val) = false := beq_eq_false_iff_ne.mpr (ofNat_ne h)
    simp only [IntOp.cmpi, hb]; rfl

/-- The comparison's bit widened to a word and read signed. -/
theorem eye_signed (n k : Fin 1024) :
    ((((IntOp.cmpi .eq (BitVec.ofNat 32 n.val) (BitVec.ofNat 32 k.val)).setWidth 32).toInt : ℝ) : EReal) = eye n k := by
  rw [cmpi_ramps]; unfold eye
  by_cases h : n = k
  · rw [if_pos h, if_pos h]
    have : ((1#1 : BitVec 1).setWidth 32).toInt = 1 := by decide
    rw [this]; simp
  · rw [if_neg h, if_neg h]
    have : ((0#1 : BitVec 1).setWidth 32).toInt = 0 := by decide
    rw [this]; simp

/-- The comparison's bit read unsigned (the left ramp with a zero word added first). -/
theorem eye_unsigned (n k : Fin 1024) :
    (((IntOp.cmpi .eq (IntOp.addi (BitVec.ofNat 32 n.val) 0#32) (BitVec.ofNat 32 k.val)).toNat : ℝ) : EReal) = eye n k := by
  have h0 : IntOp.addi (BitVec.ofNat 32 n.val) 0#32 = BitVec.ofNat 32 n.val := by simp [IntOp.addi]
  rw [h0, cmpi_ramps]; unfold eye
  by_cases h : n = k
  · rw [if_pos h, if_pos h]; simp
  · rw [if_neg h, if_neg h]; simp

end Cert.Spec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Bodies.lean ====
/-
  The two kernel bodies' stored values read at an index, over the extended reals.

  The first body holds one batch's adjacency `[1, 1024, 1024]` and stores, at row `n`, the inverse square root of the
  row's sum. The second holds the same adjacency block `x0`, the batch's features `x1 : [1, 1024, 64]`, the weight
  matrix `x2 : [64, 64]` and the column `x3 : [1, 1024, 1]` of inverse square roots, and stores at `(n, e)`
      x3 n · ∑ k, (x0 n k + δ n k) · (x3 k · ∑ d, x1 k d · x2 d e):
  a change of float format is the identity here, each matrix product into a zero accumulator is the plain sum over the
  contracted coordinate, dropping or adding the leading unit axis only renames an index, the column broadcast along the
  features reads the column's row, and the compared ramps are the identity matrix.
-/
import proofs.«101010_j71098888618113_1_alg».proof.Proof.Gen.KernelIdeal.Skeleton
import proofs.«101010_j71098888618113_1_alg».proof.Proof.Spec
import proofs.«101010_j71098888618113_1_alg».proof.Proof.LibRowOps
import proofs.«101010_j71098888618113_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.ValueIdx

/-! ## Dropping and adding a leading unit axis -/

section Unit
variable {α : Type} {A B : ℕ}

/-- A `[1, A, B]` array viewed `[A, B]` reads `(p, q)` at `(u, p, q)`. -/
theorem dropUnit_apply (x : (⟨3, ![1, A, B]⟩ : Shape).Idx → α) (h : (⟨3, ![1, A, B]⟩ : Shape).ShapeCasts ⟨2, ![A, B]⟩)
    (u : Fin 1) (p : Fin A) (q : Fin B) : shapeCast ⟨2, ![A, B]⟩ x h (ix2 p q) = x (ix3 u p q) :=
  shapeCast_apply x h _ _ (by
    have hu : u.val = 0 := by omega
    rw [Shape.rowMajor_val_two, Shape.rowMajor_val_three]
    show (u.val * A + p.val) * B + q.val = p.val * B + q.val
    rw [hu, Nat.zero_mul, Nat.zero_add])

/-- An `[A, B]` array viewed `[1, A, B]` reads `(u, p, q)` at `(p, q)`. -/
theorem addUnit_apply (y : (⟨2, ![A, B]⟩ : Shape).Idx → α) (h : (⟨2, ![A, B]⟩ : Shape).ShapeCasts ⟨3, ![1, A, B]⟩)
    (u : Fin 1) (p : Fin A) (q : Fin B) : shapeCast ⟨3, ![1, A, B]⟩ y h (ix3 u p q) = y (ix2 p q) :=
  shapeCast_apply y h _ _ (by
    have hu : u.val = 0 := by omega
    rw [Shape.rowMajor_val_two, Shape.rowMajor_val_three]
    show p.val * B + q.val = (u.val * A + p.val) * B + q.val
    rw [hu, Nat.zero_mul, Nat.zero_add])

end Unit

/-! ## The first body: a row's sum, inverted and rooted -/

/-- Putting coordinate `k` back on the summed (last) axis over `(u, n)` gives `(u, n, k)`. -/
theorem lift_last (h : S1x1024x1024.Reduces [2] S1x1024) (u : Fin 1) (n k : Fin 1024) : h.lift (ix2 u n) k = ix3 u n k :=
  funext fun c => Fin.ext (by match c with | ⟨0, _⟩ => rfl | ⟨1, _⟩ => rfl | ⟨2, _⟩ => rfl)

theorem degree_pay (x0 : Vec Ideal S1x1024x1024 .f32) (u : Fin 1) (n : Fin 1024) (z : Fin 1) :
    k0_pay1 (F := Ideal) x0 (ix3 u n z) = Ideal.rsqrt (∑ k : Fin 1024, x0 (ix3 u n k)) := by
  unfold k0_pay1
  show Ideal.rsqrt (shapeCast S1x1024x1 (multiReduction (F := Ideal) .add [2] S1x1024 x0 0x00000000#32 reduces_S1x1024x1024_S1x1024 (.inl rfl) rfl)
    shapeCasts_S1x1024_S1x1024x1 (ix3 u n z)) = _
  rw [shapeCast_apply _ shapeCasts_S1x1024_S1x1024x1 (ix3 u n z) (ix2 u n) (by
    have hz : z.val = 0 := by omega
    rw [Shape.rowMajor_val_two, Shape.rowMajor_val_three]
    show u.val * 1024 + n.val = (u.val * 1024 + n.val) * 1 + z.val
    rw [hz, Nat.mul_one, Nat.add_zero])]
  refine congrArg Ideal.rsqrt ?_
  refine (Ideal.multiReduction_add_single (φ := .f32) x0 0x00000000#32 reduces_S1x1024x1024_S1x1024 (.inl rfl) rfl (ix2 u n)).trans ?_
  exact Finset.sum_congr rfl fun k _ => congrArg x0 (lift_last _ u n k)

/-! ## The second body -/

theorem dotFeat_eq : dot_S1024x64_S64x64_S1024x64_1_0_0_1_n_n = DotDims.plain 1024 64 64 := rfl
theorem dotProp_eq : dot_S1024x1024_S1024x64_S1024x64_1_0_0_1_n_n = DotDims.plain 1024 1024 64 := rfl

/-- The compared ramps, widened and read signed, are the identity matrix. -/
theorem ramps_eye (n k : Fin 1024) :
    sitofp (F := Ideal) .f32 (extui 32 (cmpi .eq (iota .tc S1024x1024 32 [0] iota_S1024x1024_d0_w32) (iota .tc S1024x1024 32 [1] iota_S1024x1024_d1_w32)) natLt_1_32) (ix2 n k)
      = Spec.eye n k := by
  show ((((IntOp.cmpi .eq (iota .tc S1024x1024 32 [0] iota_S1024x1024_d0_w32 (ix2 n k)) (iota .tc S1024x1024 32 [1] iota_S1024x1024_d1_w32 (ix2 n k))).setWidth 32).toInt : ℝ) : EReal) = _
  rw [iota_single_apply, iota_single_apply]
  exact Spec.eye_signed n k

/-- The column of inverse square roots, its unit axis dropped and broadcast along the features, reads the column's row. -/
theorem col_apply (x3 : Vec Ideal S1x1024x1 .f32) (u : Fin 1) (r : Fin 1024) (q : Fin 64) :
    broadcastTo S1024x64 (shapeCast S1024x1 x3 shapeCasts_S1x1024x1_S1024x1) broadcasts_S1024x1_S1024x64 (ix2 r q) = x3 (ix3 u r 0) := by
  rw [LibColumn.broadcastTo_a1_ab_apply]
  exact dropUnit_apply x3 shapeCasts_S1x1024x1_S1024x1 u r 0

/-- The features times the weights, each node's row scaled by its inverse square root. -/
theorem scaled_feat (x1 : Vec Ideal S1x1024x64 .f32) (x2 : Vec Ideal S64x64 .f32) (x3 : Vec Ideal S1x1024x1 .f32)
    (u : Fin 1) (k : Fin 1024) (e : Fin 64) :
    mulf (F := Ideal) (broadcastTo S1024x64 (shapeCast S1024x1 x3 shapeCasts_S1x1024x1_S1024x1) broadcasts_S1024x1_S1024x64)
        (matmul dot_S1024x64_S64x64_S1024x64_1_0_0_1_n_n none
          (truncf .bf16 (shapeCast S1024x64 x1 shapeCasts_S1x1024x64_S1024x64) bitsLt_bf16_f32) (truncf .bf16 x2 bitsLt_bf16_f32)
          (constant S1024x64 .f32 0x00000000#32)) (ix2 k e)
      = x3 (ix3 u k 0) * ∑ d : Fin 64, x1 (ix3 u k d) * x2 (ix2 d e) := by
  rw [mulf_apply, col_apply x3 u k e, dotFeat_eq]
  show _ * FloatOps.matmul (DotDims.plain 1024 64 64) none _ _ (constant (F := Ideal) ⟨2, ![1024, 64]⟩ .f32 0x00000000#32) (ix2 k e) = _
  rw [LibRowOps.matmul_plain_zero_apply]
  refine congrArg (_ * ·) (Finset.sum_congr rfl fun d _ => ?_)
  rw [truncf_apply, truncf_apply]
  exact congrArg (· * _) (dropUnit_apply x1 shapeCasts_S1x1024x64_S1024x64 u k d)

theorem gcn_pay (x0 : Vec Ideal S1x1024x1024 .f32) (x1 : Vec Ideal S1x1024x64 .f32) (x2 : Vec Ideal S64x64 .f32) (x3 : Vec Ideal S1x1024x1 .f32)
    (u : Fin 1) (n : Fin 1024) (e : Fin 64) :
    k1_pay1 (F := Ideal) x1 x2 x3 x0 (ix3 u n e)
      = x3 (ix3 u n 0) * ∑ k : Fin 1024, (x0 (ix3 u n k) + Spec.eye n k) * (x3 (ix3 u k 0) * ∑ d : Fin 64, x1 (ix3 u k d) * x2 (ix2 d e)) := by
  unfold k1_pay1
  dsimp only
  rw [addUnit_apply _ shapeCasts_S1024x64_S1x1024x64 u n e, mulf_apply, col_apply x3 u n e, dotProp_eq]
  show _ * FloatOps.matmul (DotDims.plain 1024 1024 64) none _ _ (constant (F := Ideal) ⟨2, ![1024, 64]⟩ .f32 0x00000000#32) (ix2 n e) = _
  rw [LibRowOps.matmul_plain_zero_apply]
  refine congrArg (_ * ·) (Finset.sum_congr rfl fun k _ => ?_)
  rw [truncf_apply, truncf_apply, addf_apply, dropUnit_apply x0 shapeCasts_S1x1024x1024_S1024x1024 u n k, ramps_eye n k]
  exact congrArg (_ * ·) (scaled_feat x1 x2 x3 u k e)

end Cert.KernelIdeal.Bodies

end
-- ==== Proof.Arrays.lean ====
/-
  From blocks to arrays, for each of the two kernel regions, at any contents `V` the region is entered with.

  Both grids have 64 points and point `t` works on batch `t`: every window but the weight matrix's has block index
  `(t, 0, 0)` and a block `[1, rows, cols]`, so the block's entry `(u, p, q)` is the array's entry `(t, p, q)`; the weight
  matrix's one block is the whole matrix. Hence what point `t` writes back is block `t` of ONE function of the arrays:
  the degree column `Spec.dinvCol` for the first region, the propagation `Spec.outArr` for the second; the 64 blocks
  tile the output array (entry `i` lies in the block of point `i 0`), so after the run the output array is that function.
-/
import proofs.«101010_j71098888618113_1_alg».proof.Proof.Gen.KernelIdeal.Frame
import proofs.«101010_j71098888618113_1_alg».proof.Proof.Bodies
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## Region 0: the degree column -/

/-- The batch point `t` works on. -/
abbrev batch0 (t : Fin cfg0.N) : Fin 64 := ⟨t.val, t.isLt⟩
/-- The point that works on batch `b`. -/
abbrev point0 (b : Fin 64) : Fin cfg0.N := ⟨b.val, b.isLt⟩

/-- The printed index maps over the grid: both windows sit at block `(t, 0, 0)`. -/
theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem emb0_adj (t : Fin cfg0.N) (u : Fin 1) (n k : Fin 1024) :
    ((cfg0.win 0).blk t).view.emb (ix3 u n k) = ix3 (batch0 t) n k := by
  obtain ⟨e0, e1, e2, -, -, -⟩ := idx0 t
  funext a; apply Fin.ext
  match a with
  | ⟨0, _⟩ => show win0_0.index t (0 : Fin 3) * 1 + 1 * u.val = t.val; have := u.isLt; omega
  | ⟨1, _⟩ => show win0_0.index t (1 : Fin 3) * 1024 + 1 * n.val = n.val; omega
  | ⟨2, _⟩ => show win0_0.index t (2 : Fin 3) * 1024 + 1 * k.val = k.val; omega

theorem emb0_col (t : Fin cfg0.N) (u : Fin 1) (n : Fin 1024) (z : Fin 1) :
    ((cfg0.win 1).blk t).view.emb (ix3 u n z) = ix3 (batch0 t) n z := by
  obtain ⟨-, -, -, e0, e1, e2⟩ := idx0 t
  funext a; apply Fin.ext
  match a with
  | ⟨0, _⟩ => show win0_1.index t (0 : Fin 3) * 1 + 1 * u.val = t.val; have := u.isLt; omega
  | ⟨1, _⟩ => show win0_1.index t (1 : Fin 3) * 1024 + 1 * n.val = n.val; omega
  | ⟨2, _⟩ => show win0_1.index t (2 : Fin 3) * 1 + 1 * z.val = z.val; omega

/-- What point `t` writes back is block `t` of the degree column of the adjacency as the region finds it. -/
theorem deg_flushed (c : Dev nD) (t : Fin cfg0.N) :
    (dat0 V c).flushed 1 t = ((cfg0.win 1).blk t).view.read (Elt Ideal) (Spec.dinvCol (V c main_arg0)) := by
  show (cfg0.win 1).cut (grid0.coords t) ((dat0 V c).after 1 t) = _
  rw [after0_1]
  unfold out0_1
  rw [View.canon_unit_zero hz3]
  simp only [View.ld_unit_zero (S := S1x1024x1024) hz3]
  funext j
  obtain ⟨u, n, z, rfl⟩ : ∃ (u : Fin 1) (n : Fin 1024) (z : Fin 1), j = ix3 u n z :=
    ⟨j 0, j 1, j 2, eq_ix3 (n0 := 1) (n1 := 1024) (n2 := 1) j⟩
  show k0_pay1 (F := Ideal) (iblk0 V c 0 t) (ix3 u n z) = Spec.dinvCol (V c main_arg0) (((cfg0.win 1).blk t).view.emb (ix3 u n z))
  refine (Bodies.degree_pay (iblk0 V c 0 t) u n z).trans ?_
  refine Eq.trans ?_ (congrArg (Spec.dinvCol (V c main_arg0)) (emb0_col t u n z)).symm
  show Ideal.rsqrt (∑ k : Fin 1024, V c main_arg0 (((cfg0.win 0).blk t).view.emb (ix3 u n k)))
    = Ideal.rsqrt (∑ k : Fin 1024, V c main_arg0 (ix3 (batch0 t) n k))
  exact congrArg Ideal.rsqrt (Finset.sum_congr rfl fun k _ => congrArg (V c main_arg0) (emb0_adj t u n k))

/-- An entry of the column array is in point `t`'s block iff each coordinate is in the block's range on its axis. -/
theorem mem_blk0 (t : Fin cfg0.N) (i : S64x1024x1.Idx) :
    i ∈ ((cfg0.win 1).blk t).view.set ↔ ∀ a : Fin 3, win0_1.index t a * S1x1024x1.size a ≤ (i a).val ∧ (i a).val < win0_1.index t a * S1x1024x1.size a + S1x1024x1.size a := by
  show i ∈ ((View.whole main_v0).slice (win0_1.rect t)).set ↔ _
  rw [View.set_slice_whole, Rect.mem_set_unit]
  exact Iff.rfl

/-- Every entry of the column array is in the block of its batch's point. -/
theorem deg_cover (i : S64x1024x1.Idx) : ∃ t : Fin cfg0.N, (cfg0.win 1).flush t = true ∧ i ∈ ((cfg0.win 1).blk t).view.set := by
  refine ⟨point0 (i 0), flush0_1 _, ?_⟩
  rw [mem_blk0]
  obtain ⟨-, -, -, e0, e1, e2⟩ := idx0 (point0 (i 0))
  have e0' : win0_1.index (point0 (i 0)) (0 : Fin 3) = (i 0).val := e0
  have h1 : (i 1).val < 1024 := (i 1).isLt
  have h2 : (i 2).val < 1 := (i 2).isLt
  intro a
  match a with
  | ⟨0, _⟩ => show win0_1.index (point0 (i 0)) (0 : Fin 3) * 1 ≤ (i 0).val ∧ (i 0).val < win0_1.index (point0 (i 0)) (0 : Fin 3) * 1 + 1; omega
  | ⟨1, _⟩ => show win0_1.index (point0 (i 0)) (1 : Fin 3) * 1024 ≤ (i 1).val ∧ (i 1).val < win0_1.index (point0 (i 0)) (1 : Fin 3) * 1024 + 1024; omega
  | ⟨2, _⟩ => show win0_1.index (point0 (i 0)) (2 : Fin 3) * 1 ≤ (i 2).val ∧ (i 2).val < win0_1.index (point0 (i 0)) (2 : Fin 3) * 1 + 1; omega

/-- After the first region the column array holds the inverse square roots of the degrees. -/
theorem deg_final (c : Dev nD) : (dat0 V c).arrAt 1 cfg0.N = Spec.dinvCol (V c main_arg0) :=
  (dat0 V c).arrAt_eq_of_cover 1 (Spec.dinvCol (V c main_arg0)) (fun t _ => deg_flushed V c t) deg_cover

/-! ## Region 1: the propagation -/

abbrev batch1 (t : Fin cfg1.N) : Fin 64 := ⟨t.val, t.isLt⟩
abbrev point1 (b : Fin 64) : Fin cfg1.N := ⟨b.val, b.isLt⟩

/-- The printed index maps over the grid: the weight matrix's window sits at block `(0, 0)`, every other at `(t, 0, 0)`. -/
theorem idx1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

theorem emb1_adj (t : Fin cfg1.N) (u : Fin 1) (n k : Fin 1024) :
    ((cfg1.win 0).blk t).view.emb (ix3 u n k) = ix3 (batch1 t) n k := by
  obtain ⟨e0, e1, e2, -⟩ := idx1 t
  funext a; apply Fin.ext
  match a with
  | ⟨0, _⟩ => show win1_0.index t (0 : Fin 3) * 1 + 1 * u.val = t.val; have := u.isLt; omega
  | ⟨1, _⟩ => show win1_0.index t (1 : Fin 3) * 1024 + 1 * n.val = n.val; omega
  | ⟨2, _⟩ => show win1_0.index t (2 : Fin 3) * 1024 + 1 * k.val = k.val; omega

theorem emb1_att (t : Fin cfg1.N) (u : Fin 1) (k : Fin 1024) (d : Fin 64) :
    ((cfg1.win 1).blk t).view.emb (ix3 u k d) = ix3 (batch1 t) k d := by
  obtain ⟨-, -, -, e0, e1, e2, -⟩ := idx1 t
  funext a; apply Fin.ext
  match a with
  | ⟨0, _⟩ => show win1_1.index t (0 : Fin 3) * 1 + 1 * u.val = t.val; have := u.isLt; omega
  | ⟨1, _⟩ => show win1_1.index t (1 : Fin 3) * 1024 + 1 * k.val = k.val; omega
  | ⟨2, _⟩ => show win1_1.index t (2 : Fin 3) * 64 + 1 * d.val = d.val; omega

theorem emb1_wt (t : Fin cfg1.N) (d e : Fin 64) :
    ((cfg1.win 2).blk t).view.emb (ix2 d e) = ix2 d e := by
  obtain ⟨-, -, -, -, -, -, e0, e1, -⟩ := idx1 t
  funext a; apply Fin.ext
  match a with
  | ⟨0, _⟩ => show win1_2.index t (0 : Fin 2) * 64 + 1 * d.val = d.val; omega
  | ⟨1, _⟩ => show win1_2.index t (1 : Fin 2) * 64 + 1 * e.val = e.val; omega

theorem emb1_col (t : Fin cfg1.N) (u : Fin 1) (n : Fin 1024) (z : Fin 1) :
    ((cfg1.win 3).blk t).view.emb (ix3 u n z) = ix3 (batch1 t) n z := by
  obtain ⟨-, -, -, -, -, -, -, -, e0, e1, e2, -⟩ := idx1 t
  funext a; apply Fin.ext
  match a with
  | ⟨0, _⟩ => show win1_3.index t (0 : Fin 3) * 1 + 1 * u.val = t.val; have := u.isLt; omega
  | ⟨1, _⟩ => show win1_3.index t (1 : Fin 3) * 1024 + 1 * n.val = n.val; omega
  | ⟨2, _⟩ => show win1_3.index t (2 : Fin 3) * 1 + 1 * z.val = z.val; omega

theorem emb1_out (t : Fin cfg1.N) (u : Fin 1) (n : Fin 1024) (e : Fin 64) :
    ((cfg1.win 4).blk t).view.emb (ix3 u n e) = ix3 (batch1 t) n e := by
  obtain ⟨-, -, -, -, -, -, -, -, -, -, -, e0, e1, e2⟩ := idx1 t
  funext a; apply Fin.ext
  match a with
  | ⟨0, _⟩ => show win1_4.index t (0 : Fin 3) * 1 + 1 * u.val = t.val; have := u.isLt; omega
  | ⟨1, _⟩ => show win1_4.index t (1 : Fin 3) * 1024 + 1 * n.val = n.val; omega
  | ⟨2, _⟩ => show win1_4.index t (2 : Fin 3) * 64 + 1 * e.val = e.val; omega

/-- The arrays the second region is entered with, at their literal types. -/
abbrev adjA (c : Dev nD) : Spec.Adj := V c main_arg0
abbrev attA (c : Dev nD) : Spec.Att := V c main_arg1
abbrev wtA (c : Dev nD) : Spec.Wt := V c main_arg2
abbrev colA (c : Dev nD) : Spec.Col := V c main_v0

/-- What point `t` writes back is block `t` of the propagation of the arrays as the region finds them. -/
theorem gcn_flushed (c : Dev nD) (t : Fin cfg1.N) :
    (dat1 V c).flushed 4 t = ((cfg1.win 4).blk t).view.read (Elt Ideal)
      (Spec.outArr (V c main_arg0) (V c main_arg1) (V c main_arg2) (V c main_v0)) := by
  show (cfg1.win 4).cut (grid1.coords t) ((dat1 V c).after 4 t) = _
  rw [after1_4]
  unfold out1_4
  rw [View.canon_unit_zero hz3]
  simp only [View.ld_unit_zero (S := S1x1024x1024) hz3, View.ld_unit_zero (S := S1x1024x64) hz3,
    View.ld_unit_zero (S := S64x64) hz2, View.ld_unit_zero (S := S1x1024x1) hz3]
  funext j
  obtain ⟨u, n, e, rfl⟩ : ∃ (u : Fin 1) (n : Fin 1024) (e : Fin 64), j = ix3 u n e :=
    ⟨j 0, j 1, j 2, eq_ix3 (n0 := 1) (n1 := 1024) (n2 := 64) j⟩
  show k1_pay1 (F := Ideal) (iblk1 V c 1 t) (iblk1 V c 2 t) (iblk1 V c 3 t) (iblk1 V c 0 t) (ix3 u n e)
    = Spec.outArr (V c main_arg0) (V c main_arg1) (V c main_arg2) (V c main_v0) (((cfg1.win 4).blk t).view.emb (ix3 u n e))
  refine (Bodies.gcn_pay (iblk1 V c 0 t) (iblk1 V c 1 t) (iblk1 V c 2 t) (iblk1 V c 3 t) u n e).trans ?_
  refine Eq.trans ?_ (congrArg (Spec.outArr (V c main_arg0) (V c main_arg1) (V c main_arg2) (V c main_v0)) (emb1_out t u n e)).symm
  show colA V c (((cfg1.win 3).blk t).view.emb (ix3 u n 0))
      * ∑ k : Fin 1024, (adjA V c (((cfg1.win 0).blk t).view.emb (ix3 u n k)) + Spec.eye n k)
          * (colA V c (((cfg1.win 3).blk t).view.emb (ix3 u k 0))
              * ∑ d : Fin 64, attA V c (((cfg1.win 1).blk t).view.emb (ix3 u k d)) * wtA V c (((cfg1.win 2).blk t).view.emb (ix2 d e)))
    = colA V c (ix3 (batch1 t) n 0)
      * ∑ k : Fin 1024, (adjA V c (ix3 (batch1 t) n k) + Spec.eye n k)
          * (colA V c (ix3 (batch1 t) k 0)
              * ∑ d : Fin 64, attA V c (ix3 (batch1 t) k d) * wtA V c (ix2 d e))
  rw [emb1_col t u n 0]
  refine congrArg (_ * ·) (Finset.sum_congr rfl fun k _ => ?_)
  rw [emb1_adj t u n k, emb1_col t u k 0]
  refine congrArg (_ * ·) (congrArg (_ * ·) (Finset.sum_congr rfl fun d _ => ?_))
  rw [emb1_att t u k d, emb1_wt t d e]

theorem mem_blk1 (t : Fin cfg1.N) (i : S64x1024x64.Idx) :
    i ∈ ((cfg1.win 4).blk t).view.set ↔ ∀ a : Fin 3, win1_4.index t a * S1x1024x64.size a ≤ (i a).val ∧ (i a).val < win1_4.index t a * S1x1024x64.size a + S1x1024x64.size a := by
  show i ∈ ((View.whole main_v1).slice (win1_4.rect t)).set ↔ _
  rw [View.set_slice_whole, Rect.mem_set_unit]
  exact Iff.rfl

/-- Every entry of the result array is in the block of its batch's point. -/
theorem gcn_cover (i : S64x1024x64.Idx) : ∃ t : Fin cfg1.N, (cfg1.win 4).flush t = true ∧ i ∈ ((cfg1.win 4).blk t).view.set := by
  refine ⟨point1 (i 0), flush1_4 _, ?_⟩
  rw [mem_blk1]
  obtain ⟨-, -, -, -, -, -, -, -, -, -, -, e0, e1, e2⟩ := idx1 (point1 (i 0))
  have e0' : win1_4.index (point1 (i 0)) (0 : Fin 3) = (i 0).val := e0
  have h1 : (i 1).val < 1024 := (i 1).isLt
  have h2 : (i 2).val < 64 := (i 2).isLt
  intro a
  match a with
  | ⟨0, _⟩ => show win1_4.index (point1 (i 0)) (0 : Fin 3) * 1 ≤ (i 0).val ∧ (i 0).val < win1_4.index (point1 (i 0)) (0 : Fin 3) * 1 + 1; omega
  | ⟨1, _⟩ => show win1_4.index (point1 (i 0)) (1 : Fin 3) * 1024 ≤ (i 1).val ∧ (i 1).val < win1_4.index (point1 (i 0)) (1 : Fin 3) * 1024 + 1024; omega
  | ⟨2, _⟩ => show win1_4.index (point1 (i 0)) (2 : Fin 3) * 64 ≤ (i 2).val ∧ (i 2).val < win1_4.index (point1 (i 0)) (2 : Fin 3) * 64 + 64; omega

/-- After the second region the result array holds the propagation of the arrays it was entered with. -/
theorem gcn_final (c : Dev nD) : (dat1 V c).arrAt 4 cfg1.N
    = Spec.outArr (V c main_arg0) (V c main_arg1) (V c main_arg2) (V c main_v0) :=
  (dat1 V c).arrAt_eq_of_cover 4 (Spec.outArr (V c main_arg0) (V c main_arg1) (V c main_arg2) (V c main_v0))
    (fun t _ => gcn_flushed V c t) gcn_cover

end Cert.KernelIdeal.Arrays

end
-- ==== Proof.KernelValue.lean ====
/-
  The idealized kernel's run, read as a value: the result array ends at `Spec.gcn` of the three argument arrays.

  The result array after the run is the second region's output array, which is the propagation `Spec.outArr` of the
  arrays that region is entered with; it is entered with the three arguments as launched (the first region writes
  none of them) and with the column array at what the first region leaves there, the degree column `Spec.dinvCol` of
  the adjacency as launched. The propagation at that column is the layer.
-/
import proofs.«101010_j71098888618113_1_alg».proof.Proof.KernelRun
import proofs.«101010_j71098888618113_1_alg».proof.Proof.Arrays

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array at the last boundary is the layer of the launch contents. -/
theorem out_eq (c : Dev nD) : W2 m ρ c (Proc.devRef .tc main_v1)
    = Spec.gcn (m ((c.tc : Thread nD τ).loc main_arg0)) (m ((c.tc : Thread nD τ).loc main_arg1)) (m ((c.tc : Thread nD τ).loc main_arg2)) := by
  rw [W2_out, Arrays.gcn_final (V1 m ρ) c, V1_arg0, V1_arg1, V1_arg2, V1_col, Arrays.deg_final (V0 m ρ) c]
  rfl

/-- Every weakly fair execution of the idealized kernel ends with the result array at the layer of the arguments
    and the arguments unchanged. -/
theorem run : θ_run defs (onTc (τ := τ) (main (F := Ideal))) ⟨m, fun _ => 0, ρ⟩ (fun r => ∀ c : Dev nD,
      r.2.mem ((c.tc : Thread nD τ).loc main_v1)
        = Spec.gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m ρ c), (h c).2⟩) (run_out m ρ)

end Cert.KernelIdeal.KernelValue

end
-- ==== Proof.RefValue.lean ====
/-
  The reference's result, read one operation at a time, is `Spec.gcn` of its three arguments.

  At entry `(b, n, e)` the last multiply reads the inverse square root of node `n`'s degree (the host sum starts from
  the zero word, which is `0`, so it is the plain row sum) times the batched product's entry: the sum over `k` of the
  adjacency with the identity added, at `(b, n, k)`, times the scaled features at `(b, k, e)`; the identity is the
  compared ramps read unsigned, broadcast over the batch; the scaled features are node `k`'s inverse square root times
  the features-by-weights product at `(b, k, e)`.
-/
import proofs.«101010_j71098888618113_1_alg».proof.Proof.Gen.ReferenceIdeal.Run
import proofs.«101010_j71098888618113_1_alg».proof.Proof.Gen.ReferenceIdeal.Read
import proofs.«101010_j71098888618113_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's inverse square root of a degree. -/
theorem ref_dinv (adj : Spec.Adj) (b : Fin 64) (n : Fin 1024) :
    val_main_v1 (F := Ideal) adj (ix2 b n) = Spec.dinv adj b n := by
  rw [val_main_v1_apply, val_main_v0_apply, val_main_cst_apply]
  simp only [Ideal.hostUnary_rsqrt_def, Ideal.ofBits_def, Ideal.ofBits_zero_f32, zero_add]
  unfold Spec.dinv
  refine congrArg Ideal.rsqrt (Finset.sum_congr rfl fun k _ => congrArg adj ?_)
  exact funext fun a => Fin.ext (by match a with | ⟨0, _⟩ => rfl | ⟨1, _⟩ => rfl | ⟨2, _⟩ => rfl)

/-- The reference's identity matrix, broadcast over the batch. -/
theorem ref_eye (b : Fin 64) (n k : Fin 1024) : val_main_v9 (F := Ideal) (ix3 b n k) = Spec.eye n k := by
  rw [val_main_v9_apply, val_main_v8_apply, val_main_v7_apply, val_main_v6_apply, val_main_v5_apply, val_main_v2_apply,
    val_main_v3_apply, val_main_v4_apply, val_main_c_apply]
  exact Spec.eye_unsigned n k

/-- The reference's features-by-weights product. -/
theorem ref_feat (att : Spec.Att) (w : Spec.Wt) (b : Fin 64) (k : Fin 1024) (e : Fin 64) :
    val_main_v11 (F := Ideal) att w (ix3 b k e) = Spec.feat att w b k e := by
  rw [val_main_v11_apply]
  unfold Spec.feat
  refine Finset.sum_congr rfl fun d _ => ?_
  have el : lidx_main_v11 (ix3 b k e) d = ix3 b k d :=
    funext fun a => Fin.ext (by match a with | ⟨0, _⟩ => rfl | ⟨1, _⟩ => rfl | ⟨2, _⟩ => rfl)
  have er : ridx_main_v11 (ix3 b k e) d = ix2 d e :=
    funext fun a => Fin.ext (by match a with | ⟨0, _⟩ => rfl | ⟨1, _⟩ => rfl)
  rw [el, er]

/-- The reference's scaled features. -/
theorem ref_scaled (adj : Spec.Adj) (att : Spec.Att) (w : Spec.Wt) (b : Fin 64) (k : Fin 1024) (e : Fin 64) :
    val_main_v14 (F := Ideal) adj att w (ix3 b k e) = Spec.dinv adj b k * Spec.feat att w b k e := by
  rw [val_main_v14_apply, val_main_v13_apply, val_main_v12_apply]
  have hd : idx_main_v12 (idx_main_v13 (ix3 b k e)) = ix2 b k :=
    funext fun a => Fin.ext (by match a with | ⟨0, _⟩ => rfl | ⟨1, _⟩ => rfl)
  rw [hd, ref_dinv, ref_feat]
  rfl

/-- The reference's result is the layer `Spec.gcn` of the arguments. -/
theorem ref_gcn (adj : Spec.Adj) (att : Spec.Att) (w : Spec.Wt) :
    val_main_v18 (F := Ideal) adj att w = Spec.gcn adj att w := by
  funext i
  obtain ⟨b, n, e, rfl⟩ : ∃ (b : Fin 64) (n : Fin 1024) (e : Fin 64), i = ix3 b n e := ⟨i 0, i 1, i 2, eq_ix3 i⟩
  rw [val_main_v18_apply, val_main_v17_apply, val_main_v16_apply, val_main_v15_apply]
  have hd : idx_main_v16 (idx_main_v17 (ix3 b n e)) = ix2 b n :=
    funext fun a => Fin.ext (by match a with | ⟨0, _⟩ => rfl | ⟨1, _⟩ => rfl)
  rw [hd, ref_dinv]
  show Spec.dinv adj b n * _ = Spec.outWith adj att w (Spec.dinvCol adj) b n e
  unfold Spec.outWith
  refine congrArg (Spec.dinv adj b n * ·) (Finset.sum_congr rfl fun k _ => ?_)
  have hl : lidx_main_v15 (ix3 b n e) k = ix3 b n k :=
    funext fun a => Fin.ext (by match a with | ⟨0, _⟩ => rfl | ⟨1, _⟩ => rfl | ⟨2, _⟩ => rfl)
  have hr : ridx_main_v15 (ix3 b n e) k = ix3 b k e :=
    funext fun a => Fin.ext (by match a with | ⟨0, _⟩ => rfl | ⟨1, _⟩ => rfl | ⟨2, _⟩ => rfl)
  rw [hl, hr, val_main_v10_apply, ref_eye, ref_scaled]
  rfl

end Cert.ReferenceIdeal.RefValue

end
-- ==== Proof.lean ====
/-
  A graph-convolution layer, `out = D (A + I) D (X W)` with `D = diag((A 1)^(-1/2))` taken before the self-loops are
  added, computed by two chained kernels (the degrees' inverse square roots per batch; then per batch the two matrix
  products with the row scalings between them) against the same formula written with host operations.

  Over the extended reals both are, entry by entry,
      out[b, n, e] = dinv[b, n] · ∑ k, (adj[b, n, k] + δ n k) · (dinv[b, k] · ∑ d, att[b, k, d] · w[d, e]),
      dinv[b, n]   = (∑ k, adj[b, n, k])^(-1/2)
  (`Spec.gcn`): a change of float format is the identity, a matrix product into a zero accumulator and the host's
  contraction are the same sum, a lane sum and the host's sum from zero are the same sum, and the identity matrix is
  the same on both sides. No law beyond reindexing is needed, so the precondition is never opened. The second result
  is the weight matrix itself on both sides.

  The three frames are the generated ones (the reference's is its run with the result dropped); the idealization
  rewrote nothing, so the preservation claim is trivial.
-/
import proofs.«101010_j71098888618113_1_alg».proof.Defs
import proofs.«101010_j71098888618113_1_alg».proof.Proof.Gen.Kernel
import proofs.«101010_j71098888618113_1_alg».proof.Proof.Gen.Kernel.Frame
import proofs.«101010_j71098888618113_1_alg».proof.Proof.Gen.KernelIdeal
import proofs.«101010_j71098888618113_1_alg».proof.Proof.Gen.KernelIdeal.Frame
import proofs.«101010_j71098888618113_1_alg».proof.Proof.Gen.ReferenceIdeal
import proofs.«101010_j71098888618113_1_alg».proof.Proof.Gen.ReferenceIdeal.Run
import proofs.«101010_j71098888618113_1_alg».proof.Proof.Gen.ReferenceIdeal.Read
import proofs.«101010_j71098888618113_1_alg».proof.Proof.Gen.Pre_finite_inputs
import proofs.«101010_j71098888618113_1_alg».proof.Proof.KernelValue
import proofs.«101010_j71098888618113_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs end with the first result at the layer of the (agreeing) arguments and the second at the weight matrix. -/
theorem algebraic : Cert.algebraic_KernelIdeal_ReferenceIdeal := by
  intro m ρ m' ρ' _ hagree
  refine ⟨fun c => Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg2), ?_, ?_⟩
  · exact (θ_run Cert.KernelIdeal.defs _ _).mono (fun r h c => ⟨(h c).1, (h c).2.2.2, (h c).2⟩)
      (Cert.KernelIdeal.KernelValue.run m ρ)
  · refine (θ_run Cert.ReferenceIdeal.defs _ _).mono (fun r h c => ⟨?_, (h c).2.1.trans (hagree c).2.2, (h c).2.2⟩)
      (Cert.ReferenceIdeal.Value.run (F := Ideal) m' ρ')
    refine (h c).1.trans ((Cert.ReferenceIdeal.Read.val_main_v18_eq _ _ _).trans ((Cert.ReferenceIdeal.RefValue.ref_gcn _ _ _).trans ?_))
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
